-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S4096x512 : Shape := ⟨2, ![4096, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  broadcasts_S1024x1_S1024x4096 : S1024x1.Broadcasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.RowLayer.lean ====
/-
  A dense layer on rows scaled to unit length, followed by a rectifier, on the extended reals.

  For a row `xr` of the input, a row `wo` of the weight matrix and a bias `bo`, one output entry is
      max (∑ₖ (xr k / (√(∑ⱼ xr j · xr j) + ε)) · wo k + bo) 0 :
  every entry of the row is divided by the row's Euclidean length plus a small positive constant `ε`, the scaled
  row is paired with a weight row, the bias is added, and a negative result is replaced by zero. The whole layer
  applies this at every (input row, weight row) pair. Both programs compute exactly this expression — the same sums,
  the same quotient, the same square root — so no law beyond re-indexing a finite sum and `0 + s = s` is needed,
  and the expression is never required to be finite.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowLayer

open Idealize.ShloMosaic Idealize.ShloMosaic.ValueIdx

/-- The small positive constant added to a row's length before dividing, as the float word both programs spell. -/
abbrev eps : EReal := Ideal.ofBits .f32 0x38D1B717#32

/-- A row's Euclidean length plus `ε`: what every entry of the row is divided by. -/
def rowDenom {K : Nat} (xr : Fin K → EReal) : EReal :=
  Ideal.sqrt (∑ j : Fin K, xr j * xr j) + eps

/-- One output entry from one input row, one weight row and one bias. -/
def entry {K : Nat} (xr wo : Fin K → EReal) (bo : EReal) : EReal :=
  max ((∑ k : Fin K, Ideal.div (xr k) (rowDenom xr) * wo k) + bo) 0

/-- The whole layer: entry `(r, o)` pairs input row `r` with weight row `o` and bias `o`. -/
def layer (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => entry (fun k : Fin 4096 => x (ix2 (i 0 : Fin 8192) k)) (fun k : Fin 4096 => W (ix2 (i 1 : Fin 4096) k))
    (b (ix1 (i 1 : Fin 4096)))

theorem layer_apply (x : (⟨2, ![8192, 4096]⟩ : Shape).Idx → EReal) (W : (⟨2, ![4096, 4096]⟩ : Shape).Idx → EReal)
    (b : (⟨1, ![4096]⟩ : Shape).Idx → EReal) (r : Fin 8192) (o : Fin 4096) :
    layer x W b (ix2 r o) = entry (fun k : Fin 4096 => x (ix2 r k)) (fun k : Fin 4096 => W (ix2 o k)) (b (ix1 o)) := rfl

/-- An entry depends only on the input row, the weight row and the bias it is given. -/
theorem entry_congr {K : Nat} {xr xr' wo wo' : Fin K → EReal} {bo bo' : EReal}
    (hx : ∀ k, xr k = xr' k) (hw : ∀ k, wo k = wo' k) (hb : bo = bo') : entry xr wo bo = entry xr' wo' bo' := by
  rw [show xr = xr' from funext hx, show wo = wo' from funext hw, hb]

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.RowLayer

end
-- ==== Proof.BodyEntry.lean ====
/-
  What the kernel's body stores, read at one entry of its output block.

  The body loads a 1024-row block of the input, a 512-row block of the weights and a 512-entry piece of the bias. It
  sums each input row's squares, takes the square root, adds `ε`, divides the row by that, multiplies the scaled
  rows by the transposed weight block into a zero accumulator, adds the bias along the rows and takes the maximum with
  zero. At entry `(p, q)` this is the layer's entry for input row `p`, weight row `q` and bias entry `q` of the
  blocks: the matrix product at an entry is the sum over the shared axis, and the weight block's transpose at
  `(k, q)` is the block at `(q, k)`.
-/
import proofs.«155133_j14456859918385_1_alg».proof.Proof.Gen.KernelIdeal.Skeleton
import proofs.«155133_j14456859918385_1_alg».proof.Proof.LibPlainDot
import proofs.«155133_j14456859918385_1_alg».proof.Proof.RowLayer
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyEntry

open Cert.KernelIdeal Cert.KernelIdeal.Gen Idealize.ShloMosaic Idealize.ShloMosaic.ValueIdx Cert.RowLayer

/-! ## The matrix product's operand indices, axis by axis -/

/-- The left operand is read at the output entry's row. -/
theorem lhs_rows (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
/-- The left operand's column is the summation index. -/
theorem lhs_contr (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
/-- The right operand's row is the summation index. -/
theorem rhs_contr (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
/-- The right operand is read at the output entry's column. -/
theorem rhs_cols (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The block's matrix product into zeros, at entry `(p, q)`: the sum over the shared axis. -/
theorem matmul_entry (l : FVec Ideal S1024x4096 .bf16) (r : FVec Ideal S4096x512 .bf16) (p : Fin 1024) (q : Fin 512) :
    matmul dot_S1024x4096_S4096x512_S1024x512_1_0_0_1_n_n none l r (constant (F := Ideal) S1024x512 .f32 0x00000000#32) (ix2 p q)
      = ∑ k : Fin 4096, l (ix2 p k) * r (ix2 k q) := by
  refine (Ideal.matmul_constant_zero_apply dot_S1024x4096_S4096x512_S1024x512_1_0_0_1_n_n none l r (ix2 p q)).trans ?_
  exact Cert.LibPlainDot.sum_plain dot_S1024x4096_S4096x512_S1024x512_1_0_0_1_n_n rfl rfl lhs_rows lhs_contr rhs_contr rhs_cols l r p q

/-- A row's sum of squares by the lane reduction, at row `p`. -/
theorem rowSq_apply (v : FVec Ideal S1024x4096 .f32) (h : S1024x4096.Reduces [1] S1024) (hφ : FKind.Formats .f32)
    (hacc : (0x00000000#32 : BitVec 32) = FKind.add.neutral .f32 hφ) (p : Fin 1024) :
    multiReduction .add [1] S1024 (mulf v v) 0x00000000#32 h hφ hacc (ix1 p) = ∑ k : Fin 4096, v (ix2 p k) * v (ix2 p k) := by
  refine (Ideal.multiReduction_add_single (mulf v v) 0x00000000#32 h hφ hacc (ix1 p)).trans ?_
  refine Finset.sum_congr rfl fun k _ => ?_
  show v (h.lift (ix1 p) k) * v (h.lift (ix1 p) k) = _
  rw [show h.lift (ix1 p) k = ix2 p k from funext fun a => Fin.ext (by match a with | ⟨0, _⟩ => rfl | ⟨1, _⟩ => rfl)]
  rfl

/-! ## The body's result at an entry -/

/-- What the body stores at entry `(p, q)` of its output block, from the three blocks it loads: the layer's entry for
    row `p` of the input block, row `q` of the weight block and entry `q` of the bias block. The scaled row is
    narrowed before the product, which changes nothing on the extended reals; the weight block enters transposed, so
    the product's `(k, q)` factor is the block's `(q, k)` entry. -/
theorem pay_apply (v0 : Vec Ideal S1024x4096 .f32) (v10 : Vec Ideal S512x4096 .bf16) (v14 : Vec Ideal S1x512 .f32)
    (p : Fin 1024) (q : Fin 512) :
    k0_pay1 (F := Ideal) v0 v10 v14 (ix2 p q)
      = entry (fun k : Fin 4096 => v0 (ix2 p k)) (fun k : Fin 4096 => v10 (ix2 q k)) (v14 (ix2 (0 : Fin 1) q)) := by
  unfold k0_pay1
  dsimp only
  rw [maximumf_apply, addf_apply, broadcast_apply]
  rw [matmul_entry, broadcastTo_1b_ab_apply, shapeCast_self, shapeCast_self]
  unfold entry rowDenom
  dsimp only
  refine congrArg₂ max (congrArg (· + v14 (ix2 (0 : Fin 1) q)) (Finset.sum_congr rfl fun k _ => ?_)) Ideal.ofBits_zero_f32
  rw [truncf_apply, divf_apply, Cert.LibPlainDot.broadcastTo_a1_ab_apply, addf_apply, broadcast_apply,
    transpose_ix2_apply]
  show Ideal.div (v0 (ix2 p k)) (Ideal.sqrt (shapeCast S1024x1 _ _ (ix2 p (0 : Fin 1))) + eps) * _ = _
  rw [shapeCast_a_a1_apply]
  exact congrArg (fun s => Ideal.div (v0 (ix2 p k)) (Ideal.sqrt s + eps) * v10 (ix2 q k)) (rowSq_apply v0 _ _ _ p)

end Cert.KernelIdeal.BodyEntry

end
-- ==== Proof.LayerArray.lean ====
/-
  From the blocks to the array: after the run the kernel's result array is the layer of its three arguments.

  The grid has 8 × 8 points. Point `(a, b)` reads input rows `1024·a … 1024·a + 1023` (all 4096 columns), weight rows
  `512·b … 512·b + 511` and bias entries `512·b … 512·b + 511`, and writes the output block of those rows and columns.
  The weights reach the region narrowed and the bias re-laid as one row; neither changes an entry on the extended
  reals. So what a point writes at `(p, q)` of its block is the layer's entry at `(1024·a + p, 512·b + q)` of the
  arrays: a block's coordinate is its block index times the block size plus the coordinate inside the block. The 64
  output blocks tile the array, entry `(r, o)` lying in the block of point `(r / 1024, o / 512)`, so the array ends at
  the layer everywhere.
-/
import proofs.«155133_j14456859918385_1_alg».proof.Proof.Gen.KernelIdeal.Value
import proofs.«155133_j14456859918385_1_alg».proof.Proof.BodyEntry
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.LayerArray

open Cert.KernelIdeal Cert.KernelIdeal.Gen Idealize.ShloMosaic Idealize.ShloMosaic.TcCoe Idealize.SL.Sem
open Idealize.ShloMosaic.ValueIdx Idealize.ShloMosaic.StableHlo Cert.RowLayer
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region is entered with -/

/-- The weights are narrowed before the region, which changes no entry on the extended reals. -/
theorem weights_eq (c : Dev nD) :
    (V m c main_v0 : S4096x4096.Idx → EReal) = m ((c : Thread nD τ).loc main_arg1) := by
  dsimp only [V, hostOps0]; after_results; rfl

/-- The bias enters as one row: the vector re-laid as `[1, 4096]`. -/
theorem bias_eq (c : Dev nD) :
    (V m c main_v1 : S1x4096.Idx → EReal) = shapeCast S1x4096 (m ((c : Thread nD τ).loc main_arg2)) shapeCasts_S4096_S1x4096 := by
  dsimp only [V, hostOps0]; after_results; rfl

/-! ## One point's block -/

/-- The block indices, decided over the 64 points: the input block follows the output's row block, the weight and
    bias blocks follow its column block, and every other block index is zero. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every (row block, column block) pair is some point's output block. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- The body's result at an entry of its block is the layer's entry at an index of the arrays, when the loaded
    blocks' rows are the arrays' rows there. -/
theorem block_entry (x0 : Vec Ideal S1024x4096 .f32) (x1 : Vec Ideal S512x4096 .bf16) (x2 : Vec Ideal S1x512 .f32)
    (X : S8192x4096.Idx → EReal) (Wt : S4096x4096.Idx → EReal) (b : S4096.Idx → EReal)
    (j : S1024x512.Idx) (i : S8192x4096.Idx)
    (hx : ∀ k : Fin 4096, x0 (ix2 (j 0 : Fin 1024) k) = X (ix2 (i 0 : Fin 8192) k))
    (hw : ∀ k : Fin 4096, x1 (ix2 (j 1 : Fin 512) k) = Wt (ix2 (i 1 : Fin 4096) k))
    (hb : x2 (ix2 (0 : Fin 1) (j 1 : Fin 512)) = b (ix1 (i 1 : Fin 4096))) :
    k0_pay1 (F := Ideal) x0 x1 x2 j = layer X Wt b i := by
  obtain ⟨p, q, rfl⟩ : ∃ (p : Fin 1024) (q : Fin 512), j = ix2 p q := ⟨j 0, j 1, eq_ix2 j⟩
  obtain ⟨r, o, rfl⟩ : ∃ (r : Fin 8192) (o : Fin 4096), i = ix2 r o := ⟨i 0, i 1, eq_ix2 i⟩
  rw [BodyEntry.pay_apply, layer_apply]
  exact entry_congr hx hw hb

/-- What point `t` writes back is block `t` of the layer of the three argument arrays. -/
theorem flushed_eq (c : Dev nD) (t : Fin cfg0.N) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S1024x4096) hz, View.ld_unit_zero (S := S512x4096) hz, View.ld_unit_zero (S := S1x512) hz]
  obtain ⟨e0, e1, e2, e3, e4, e5, e6, e7⟩ := idx_facts t
  funext j
  refine block_entry (iblk m c 0 t) (iblk m c 1 t) (iblk m c 2 t) (m ((c : Thread nD τ).loc main_arg0))
    (m ((c : Thread nD τ).loc main_arg1)) (m ((c : Thread nD τ).loc main_arg2)) j (((cfg0.win 3).blk t).view.emb j) ?_ ?_ ?_
  · intro k
    show V m c main_arg0 (((cfg0.win 0).blk t).view.emb (ix2 (j 0 : Fin 1024) k)) = _
    refine (congrFun (V_main_arg0 m c) _).trans (congrArg _ (funext fun a => Fin.ext ?_))
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  · intro k
    show V m c main_v0 (((cfg0.win 1).blk t).view.emb (ix2 (j 1 : Fin 512) k)) = _
    refine (congrFun (weights_eq m c) _).trans (congrArg _ (funext fun a => Fin.ext ?_))
    match a with
    | ⟨0, _⟩ => show win0_1.index t (0 : Fin 2) * 512 + 1 * (j 1).val = win0_3.index t (1 : Fin 2) * 512 + 1 * (j 1).val; omega
    | ⟨1, _⟩ => show win0_1.index t (1 : Fin 2) * 4096 + 1 * k.val = k.val; omega
  · show V m c main_v1 (((cfg0.win 2).blk t).view.emb (ix2 (0 : Fin 1) (j 1 : Fin 512))) = _
    refine (congrFun (bias_eq m c) _).trans (shapeCast_apply (s := S4096) (t := S1x4096) _ _ _ _ ?_)
    rw [Shape.rowMajor_val_two, Shape.rowMajor_val_one]
    show win0_3.index t (1 : Fin 2) * 512 + 1 * (j 1).val
      = (win0_2.index t (0 : Fin 2) * 1 + 1 * 0) * 4096 + (win0_2.index t (1 : Fin 2) * 512 + 1 * (j 1).val)
    omega

/-! ## The whole array -/

/-- An index of the output array is in point `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- The 8 × 8 output blocks tile the array: entry `(r, o)` is in the block of row block `r / 1024` and column
    block `o / 512`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the run the output array is the layer of the three argument arrays. -/
theorem final (c : Dev nD) : (dats m 0 c).arrAt 3 cfg0.N
    = layer (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array ends at the layer of the arguments, the arguments unchanged. -/
theorem run : θ_run defs (onTc (τ := τ) (main (F := Ideal))) ⟨m, fun _ => 0, ρ⟩ fun r => ∀ c : Dev nD,
      r.2.mem ((c : Thread nD τ).loc main_v2)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LayerArray

end
-- ==== Proof.RefLayer.lean ====
/-
  The reference program's result, one stage at a time, is the layer: at entry `(r, o)` its stages compose to
  `max (∑ₖ (x(r,k) / (√(0 + ∑ⱼ x(r,j)·x(r,j)) + ε)) · W(o,k) + b(o)) 0`, and `0 + s = s`.
-/
import proofs.«155133_j14456859918385_1_alg».proof.Proof.Gen.ReferenceIdeal.Read
import proofs.«155133_j14456859918385_1_alg».proof.Proof.RowLayer

noncomputable section

open scoped BigOperators

namespace Cert.ReferenceIdeal.RefLayer

open Cert.ReferenceIdeal Cert.ReferenceIdeal.Read Idealize.ShloMosaic Idealize.ShloMosaic.ValueIdx Cert.RowLayer

/-- The row sum of squares the reference divides by, read at row `r` from any column `k` of the broadcast. -/
theorem ref_rowSq (x0 : (⟨S8192x4096, .f32⟩ : BufTy).Contents (Elt Ideal)) (r : Fin 8192) (k : Fin 4096) :
    val_main_v1 (F := Ideal) x0 (idx_main_v2 (idx_main_v6 (ix2 r k))) = ∑ j : Fin 4096, x0 (ix2 r j) * x0 (ix2 r j) := by
  rw [val_main_v1_apply, val_main_cst_apply]
  refine (congrArg (· + _) Ideal.ofBits_zero_f32).trans ((zero_add _).trans (Finset.sum_congr rfl fun j _ => ?_))
  rw [val_main_v0_apply]
  rw [show idx_main_v1 (idx_main_v2 (idx_main_v6 (ix2 r k))) j = ix2 r j from
    funext fun a => Fin.ext (by match a with | ⟨0, _⟩ => rfl | ⟨1, _⟩ => rfl)]
  rfl

/-- The reference's last stage is the layer of its three arguments. -/
theorem ref_is_layer (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v12 (F := Ideal) x0 x1 x2 = layer x0 x1 x2 := by
  funext i
  obtain ⟨r, o, rfl⟩ : ∃ (r : Fin 8192) (o : Fin 4096), i = ix2 r o := ⟨i 0, i 1, eq_ix2 i⟩
  rw [layer_apply, val_main_v12_apply, val_main_v11_apply, val_main_v8_apply, val_main_v10_apply, val_main_v9_apply,
    val_main_call0_v0_apply, val_main_call0_cst_apply]
  unfold entry rowDenom
  dsimp only
  refine congrArg₂ max (congrArg₂ (· + ·) (Finset.sum_congr rfl fun k _ => ?_) ?_) Ideal.ofBits_zero_f32
  · rw [show lidx_main_v8 (ix2 r o) k = ix2 r k from
        funext fun a => Fin.ext (by match a with | ⟨0, _⟩ => rfl | ⟨1, _⟩ => rfl),
      show ridx_main_v8 (ix2 r o) k = ix2 o k from
        funext fun a => Fin.ext (by match a with | ⟨0, _⟩ => rfl | ⟨1, _⟩ => rfl)]
    rw [val_main_v7_apply, val_main_v6_apply, val_main_v5_apply, val_main_v3_apply, val_main_v2_apply, ref_rowSq,
      val_main_v4_apply, val_main_cst_0_apply]
    rfl
  · exact congrArg x2 (funext fun a => Fin.ext (by match a with | ⟨0, _⟩ => rfl))

end Cert.ReferenceIdeal.RefLayer

end
-- ==== Proof.lean ====
/-
  The kernel against its reference: a dense layer on rows scaled to unit length, with a rectifier.

  Both programs compute, at entry `(r, o)`,
      max (∑ₖ (x(r,k) / (√(∑ⱼ x(r,j)·x(r,j)) + ε)) · W(o,k) + b(o)) 0
  with the same constant `ε`. The kernel does so block by block over an 8 × 8 grid, narrowing the scaled rows and the
  weights before the product; on the extended reals a change of format is the identity, a matrix product into zeros is
  the plain sum over the shared axis, and a lane sum is the plain sum over the row. The reference does so with whole
  arrays; its row sum starts from an explicit zero, and `0 + s = s`. No step distributes, cancels or moves a factor
  across a sum, so nothing here needs the inputs to be finite.

  The three frames: the kernel's and the idealized kernel's are the generated frame theorems; the reference has no
  kernel, and its frame is its generated run with the result dropped. The idealization rewrote no operation, so there
  is nothing to preserve. For the equivalence, the kernel's result array is the layer of its arguments
  (Proof/LayerArray.lean, over Proof/BodyEntry.lean), the reference's last stage is the same layer
  (Proof/RefLayer.lean), and the two memories agree on the arguments.
-/
import proofs.«155133_j14456859918385_1_alg».proof.Defs
import proofs.«155133_j14456859918385_1_alg».proof.Proof.Gen.Kernel
import proofs.«155133_j14456859918385_1_alg».proof.Proof.Gen.Kernel.Skeleton
import proofs.«155133_j14456859918385_1_alg».proof.Proof.Gen.Kernel.Launch
import proofs.«155133_j14456859918385_1_alg».proof.Proof.Gen.Kernel.Points
import proofs.«155133_j14456859918385_1_alg».proof.Proof.Gen.Kernel.Frame
import proofs.«155133_j14456859918385_1_alg».proof.Proof.Gen.KernelIdeal
import proofs.«155133_j14456859918385_1_alg».proof.Proof.Gen.KernelIdeal.Skeleton
import proofs.«155133_j14456859918385_1_alg».proof.Proof.Gen.KernelIdeal.Launch
import proofs.«155133_j14456859918385_1_alg».proof.Proof.Gen.KernelIdeal.Points
import proofs.«155133_j14456859918385_1_alg».proof.Proof.Gen.KernelIdeal.Frame
import proofs.«155133_j14456859918385_1_alg».proof.Proof.Gen.ReferenceIdeal
import proofs.«155133_j14456859918385_1_alg».proof.Proof.Gen.Pre_finite_inputs
import proofs.«155133_j14456859918385_1_alg».proof.Proof.Gen.KernelIdeal.Value
import proofs.«155133_j14456859918385_1_alg».proof.Proof.Gen.ReferenceIdeal.Run
import proofs.«155133_j14456859918385_1_alg».proof.Proof.Gen.ReferenceIdeal.Read
import proofs.«155133_j14456859918385_1_alg».proof.Proof.LayerArray
import proofs.«155133_j14456859918385_1_alg».proof.Proof.RefLayer
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the layer of the kernel's arguments: the kernel's by the blocks tiling the
    array, the reference's stage by stage, its arguments being the kernel's. -/
theorem algebraic : Cert.algebraic_KernelIdeal_ReferenceIdeal := by
  intro m ρ m' ρ' _ hagree
  refine ⟨_, Cert.KernelIdeal.LayerArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v12_eq _ _ _).trans (Cert.ReferenceIdeal.RefLayer.ref_is_layer _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
